-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S3200000 32) (main_arg2 : IVec S3200000 32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S10000x256 : Shape := ⟨2, ![10000, 256]⟩
abbrev S10000x1 : Shape := ⟨2, ![10000, 1]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 43
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x64, .f32⟩
  | .hbm, ⟨4, _⟩ => ⟨S64, .f32⟩
  | .hbm, ⟨5, _⟩ => ⟨S100000, .i32⟩
  | .hbm, ⟨6, _⟩ => ⟨S3300000, .i32⟩
  | .hbm, ⟨7, _⟩ => ⟨S3300000, .i32⟩
  | .hbm, ⟨8, _⟩ => ⟨S_, .f32⟩
  | .hbm, ⟨9, _⟩ => ⟨S3300000, .f32⟩
  | .hbm, ⟨10, _⟩ => ⟨S_, .f32⟩
  | .hbm, ⟨11, _⟩ => ⟨S100000, .f32⟩
  | .hbm, ⟨12, _⟩ => ⟨S3300000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000x64, .f32⟩
  | .hbm, ⟨37, _⟩ => ⟨S_, .f32⟩
  | .hbm, ⟨38, _⟩ => ⟨S100000x64, .f32⟩
  | .hbm, ⟨39, _⟩ => ⟨S3300000x1, .i32⟩
  | .hbm, ⟨40, _⟩ => ⟨S100000x64, .f32⟩
  | .hbm, ⟨41, _⟩ => ⟨S100000x1, .f32⟩
  | .hbm, ⟨42, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S10000x1, .f32⟩
  | .local _ .vmem, ⟨3, _⟩ => ⟨S10000x1, .f32⟩
  | .local _ .vmem, ⟨4, _⟩ => ⟨S256x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S10000x256_S10000x256_0_0 : ∀ a, (![0, 0] : Fin 2 → Nat) a + S10000x256.size a ≤ S10000x256.size a
  h_S10000x256 : 0 < S10000x256.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  broadcasts_S10000x1_S10000x64 : S10000x1.Broadcasts S10000x64
  scatter_S100000_S3300000x1_S3300000_n_0_0_1_wf : ScatterDims.WF S100000 S3300000x1 S3300000 [] [0] [0] 1
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x64, .f32⟩
  | .hbm, ⟨4, _⟩ => ⟨S64, .f32⟩
  | .hbm, ⟨5, _⟩ => ⟨S100000, .i32⟩
  | .hbm, ⟨6, _⟩ => ⟨S3300000, .i32⟩
  | .hbm, ⟨7, _⟩ => ⟨S3300000, .i32⟩
  | .hbm, ⟨8, _⟩ => ⟨S_, .f32⟩
  | .hbm, ⟨9, _⟩ => ⟨S3300000, .f32⟩
  | .hbm, ⟨10, _⟩ => ⟨S_, .f32⟩
  | .hbm, ⟨11, _⟩ => ⟨S100000, .f32⟩
  | .hbm, ⟨12, _⟩ => ⟨S3300000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x64, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000x64, .f32⟩
  | .hbm, ⟨39, _⟩ => ⟨S_, .f32⟩
  | .hbm, ⟨40, _⟩ => ⟨S100000x64, .f32⟩
  | .hbm, ⟨41, _⟩ => ⟨S3300000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.LibColumnBroadcast.lean ====
/- A column laid across every lane: the layout lemma a value proof needs when a kernel broadcasts a per-row scalar,
   kept as an [a, 1] array, over the b entries of each row. -/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, q)`, the operand's one entry of row `p`:
    the row coordinate is kept (whether or not `a = 1`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Project.lean ====
/- The first kernel region read as a value, over the extended reals: after its ten grid points the array it writes holds,
   at (r, j), the sum over k of (X[r, k] · N[r, 0]) · W[k, j] of the three arrays the region is entered with — each row of X
   scaled by that row's norm, then multiplied into W. Block t of the output is rows 10000·t … 10000·t + 9999, a matrix
   product of the same rows of X and N with the whole of W into a zero accumulator; a change of float format is the
   identity here, and the ten blocks tile the array. -/
import proofs.«124485_j463856468203_1_alg».proof.Proof.Gen.KernelIdeal.Frame
import proofs.«124485_j463856468203_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Rows scaled, then projected: entry (r, j) is `∑ k, (X[r, k] · N[r, 0]) · W[k, j]`. -/
def projRows (X : FVec Ideal S100000x256 .f32) (N : FVec Ideal S100000x1 .f32) (W : FVec Ideal S256x64 .f32) :
    FVec Ideal S100000x64 .f32 :=
  fun i => ∑ k : Fin 256, (X (ix2 (⟨(i 0).val, (i 0).isLt⟩ : Fin 100000) k) * N (ix2 (⟨(i 0).val, (i 0).isLt⟩ : Fin 100000) (0 : Fin 1)))
    * W (ix2 k (⟨(i 1).val, (i 1).isLt⟩ : Fin 64))

theorem hz2 : (![0, 0] : Fin 2 → Nat) = fun _ => 0 := funext fun a => by fin_cases a <;> rfl

/-! The block product's two index maps, axis by axis: the left factor is read at (row of the output, k), the right
    at (k, column of the output). -/

theorem lhs_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem lhs_1 (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
theorem rhs_0 (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
theorem rhs_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- The body's stored value at (p, q) of its block: the block product into a zero accumulator is the plain sum over the
    256 contracted entries, the left factor the loaded row entry times the row's norm. -/
theorem pay_apply (x : Vec Ideal S10000x256 .f32) (n : Vec Ideal S10000x1 .f32) (w : Vec Ideal S256x64 .f32) (p : Fin 10000) (q : Fin 64) :
    k0_pay1 x n w (ix2 p q) = ∑ k : Fin 256, (x (ix2 p k) * n (ix2 p (0 : Fin 1))) * w (ix2 k q) := by
  unfold k0_pay1
  show FloatOps.matmul dot_S10000x256_S256x64_S10000x64_1_0_0_1_n_n none
      (truncf (F := Ideal) .bf16 (mulf (x : FVec Ideal S10000x256 .f32)
        (broadcastTo S10000x256 (shapeCast S10000x1 (n : FVec Ideal S10000x1 .f32) shapeCasts_S10000x1_S10000x1) broadcasts_S10000x1_S10000x256)) bitsLt_bf16_f32)
      (truncf (F := Ideal) .bf16 (w : FVec Ideal S256x64 .f32) bitsLt_bf16_f32)
      (constant S10000x64 .f32 0x00000000#32) (ix2 p q) = _
  rw [Ideal.matmul_constant_zero_apply, ← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  have el : dot_S10000x256_S256x64_S10000x64_1_0_0_1_n_n.lhsIdx (ix2 p q) ((ValueIdx.contrEquiv1 dot_S10000x256_S256x64_S10000x64_1_0_0_1_n_n 256 rfl rfl).symm k) = ix2 p k := funext fun a => Fin.ext (by
    match a with
    | ⟨0, _⟩ => exact lhs_0 _ _
    | ⟨1, _⟩ => exact (lhs_1 _ _).trans hk)
  have er : dot_S10000x256_S256x64_S10000x64_1_0_0_1_n_n.rhsIdx (ix2 p q) ((ValueIdx.contrEquiv1 dot_S10000x256_S256x64_S10000x64_1_0_0_1_n_n 256 rfl rfl).symm k) = ix2 k q := funext fun a => Fin.ext (by
    match a with
    | ⟨0, _⟩ => exact (rhs_0 _ _).trans hk
    | ⟨1, _⟩ => exact rhs_1 _ _)
  rw [el, er]
  show (x (ix2 p k) * broadcastTo S10000x256 (shapeCast S10000x1 (n : FVec Ideal S10000x1 .f32) shapeCasts_S10000x1_S10000x1) broadcasts_S10000x1_S10000x256 (ix2 p k)) * w (ix2 k q) = _
  rw [broadcastTo_a1_ab_apply, shapeCast_self]

/-- One entry of a block against one entry of the array: when the loaded row of X, the row's norm and the loaded column
    of W are the arrays' at the matching places, the stored value is `projRows` there. -/
theorem point (x : Vec Ideal S10000x256 .f32) (n : Vec Ideal S10000x1 .f32) (w : Vec Ideal S256x64 .f32)
    (X : FVec Ideal S100000x256 .f32) (N : FVec Ideal S100000x1 .f32) (W : FVec Ideal S256x64 .f32)
    (y : S10000x64.Idx) (i : S100000x64.Idx)
    (hx : ∀ k : Fin 256, x (ix2 (⟨(y 0).val, (y 0).isLt⟩ : Fin 10000) k) = X (ix2 (⟨(i 0).val, (i 0).isLt⟩ : Fin 100000) k))
    (hn : n (ix2 (⟨(y 0).val, (y 0).isLt⟩ : Fin 10000) (0 : Fin 1)) = N (ix2 (⟨(i 0).val, (i 0).isLt⟩ : Fin 100000) (0 : Fin 1)))
    (hw : ∀ k : Fin 256, w (ix2 k (⟨(y 1).val, (y 1).isLt⟩ : Fin 64)) = W (ix2 k (⟨(i 1).val, (i 1).isLt⟩ : Fin 64))) :
    k0_pay1 x n w y = projRows X N W i := by
  obtain ⟨p, q, rfl⟩ : ∃ (p : Fin 10000) (q : Fin 64), y = ix2 p q := ⟨y 0, y 1, eq_ix2 y⟩
  rw [pay_apply]
  exact Finset.sum_congr rfl fun k _ => congrArg₂ (· * ·) (congrArg₂ (· * ·) (hx k) hn) (hw k)

/-- The printed index maps over the grid: the windows that move follow the grid point on the row axis; W stays whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `projRows` of the arrays as the region finds them. -/
theorem flushed_eq (c : Dev nD) (t : Fin cfg0.N) :
    (dat0 V c).flushed 3 t = ((cfg0.win 3).blk t).view.read (Elt Ideal) (projRows (V c main_arg0) (V c main_v16) (V c main_arg3)) := by
  show (cfg0.win 3).cut (grid0.coords t) ((dat0 V c).after 3 t) = _
  rw [after0_3]
  unfold out0_3
  rw [View.canon_unit_zero hz2]
  simp only [View.ld_unit_zero (S := S10000x256) hz2, View.ld_unit_zero (S := S10000x1) hz2, View.ld_unit_zero (S := S256x64) hz2]
  funext j
  obtain ⟨e00, e01, e10, e11, e20, e21, e30, e31⟩ := idx_facts t
  have hj0 : (j 0).val < 10000 := (j 0).isLt
  have hj1 : (j 1).val < 64 := (j 1).isLt
  show k0_pay1 (iblk0 V c 0 t) (iblk0 V c 1 t) (iblk0 V c 2 t) j
      = projRows (V c main_arg0) (V c main_v16) (V c main_arg3) (((cfg0.win 3).blk t).view.emb j)
  refine point (iblk0 V c 0 t) (iblk0 V c 1 t) (iblk0 V c 2 t) (V c main_arg0) (V c main_v16) (V c main_arg3) j
    (((cfg0.win 3).blk t).view.emb j) (fun k => ?_) ?_ (fun k => ?_)
  · show V c main_arg0 (((cfg0.win 0).blk t).view.emb (ix2 (⟨(j 0).val, (j 0).isLt⟩ : Fin 10000) k)) = V c main_arg0 _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 256 + 1 * k.val = k.val; omega
  · show V c main_v16 (((cfg0.win 1).blk t).view.emb (ix2 (⟨(j 0).val, (j 0).isLt⟩ : Fin 10000) (0 : Fin 1))) = V c main_v16 _
    refine congrArg (V c main_v16) (funext fun a => Fin.ext ?_)
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 1 + 1 * 0 = 0; omega
  · show V c main_arg3 (((cfg0.win 2).blk t).view.emb (ix2 k (⟨(j 1).val, (j 1).isLt⟩ : Fin 64))) = V c main_arg3 _
    refine congrArg (V c main_arg3) (funext fun a => Fin.ext ?_)
    match a with
    | ⟨0, _⟩ => show win0_2.index t (0 : Fin 2) * 256 + 1 * k.val = k.val; omega
    | ⟨1, _⟩ => show win0_2.index t (1 : Fin 2) * 64 + 1 * (j 1).val = win0_3.index t (1 : Fin 2) * 64 + 1 * (j 1).val; omega

/-- An index of the written array lies in point `t`'s block iff each coordinate lies in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v17).slice (win0_3.rect t)).set ↔ _
  rw [View.set_slice_whole, Rect.mem_set_unit]
  exact Iff.rfl

/-- Row r lies in the block of point r / 10000: the ten blocks tile the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_3 _, ?_⟩
  rw [mem_blk]
  obtain ⟨-, -, -, -, -, -, e30, e31⟩ := idx_facts ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 64 ≤ (i 1).val ∧ (i 1).val < win0_3.index _ (1 : Fin 2) * 64 + 64
    rw [e31]; omega

/-- THE WRITTEN ARRAY after the region: `projRows` of the three arrays the region was entered with. -/
theorem final (c : Dev nD) :
    (dat0 V c).arrAt 3 cfg0.N = projRows (V c main_arg0) (V c main_v16) (V c main_arg3) :=
  (dat0 V c).arrAt_eq_of_cover 3 _ (fun t _ => flushed_eq V c t) cover

end Cert.KernelIdeal.Project

end
-- ==== Proof.Finalize.lean ====
/- The second kernel region read as a value: after its ten grid points the result array holds, at (r, j),
   agg[r, j] · norm[r] + bias[j] of the three arrays the region is entered with. Block t of the output is rows
   10000·t … 10000·t + 9999, computed from the same rows of `agg` and `norm` and from the whole bias vector; the ten
   blocks tile the array. -/
import proofs.«124485_j463856468203_1_alg».proof.Proof.Gen.KernelIdeal.Frame
import proofs.«124485_j463856468203_1_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Finalize

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Row-scaled and biased: entry (r, j) is `A[r, j] · N[r, 0] + B[j]`. -/
def scaleBias (A : S100000x64.Idx → Elt F .f32) (N : S100000x1.Idx → Elt F .f32) (B : S64.Idx → Elt F .f32) :
    S100000x64.Idx → Elt F .f32 :=
  fun i => FloatOps.addf (FloatOps.mulf (A i) (N (ix2 (⟨(i 0).val, (i 0).isLt⟩ : Fin 100000) (0 : Fin 1)))) (B (ix1 (⟨(i 1).val, (i 1).isLt⟩ : Fin 64)))

theorem hz2 : (![0, 0] : Fin 2 → Nat) = fun _ => 0 := funext fun a => by fin_cases a <;> rfl
theorem hz1 : (![0] : Fin 1 → Nat) = fun _ => 0 := funext fun a => by fin_cases a; rfl

/-- The body's stored value at (p, q) of its block: the loaded `agg` entry times the row's norm plus the bias entry. -/
theorem pay_apply (b : Vec F S64 .f32) (a : Vec F S10000x64 .f32) (n : Vec F S10000x1 .f32) (p : Fin 10000) (q : Fin 64) :
    k1_pay1 b a n (ix2 p q) = FloatOps.addf (FloatOps.mulf (a (ix2 p q)) (n (ix2 p (0 : Fin 1)))) (b (ix1 q)) := by
  unfold k1_pay1
  show FloatOps.addf (FloatOps.mulf (shapeCast S10000x64 a _ (ix2 p q)) (broadcastTo S10000x64 (shapeCast S10000x1 n _) _ (ix2 p q)))
      (broadcastTo S10000x64 (shapeCast S1x64 b _) _ (ix2 p q)) = _
  rw [shapeCast_self, shapeCast_self, broadcastTo_a1_ab_apply, broadcastTo_1b_ab_apply, shapeCast_a_1a_apply]

/-- One entry of a block against one entry of the array: when the three loaded values are the array's at the matching
    places, the stored value is `scaleBias` there. -/
theorem point (b : Vec F S64 .f32) (a : Vec F S10000x64 .f32) (n : Vec F S10000x1 .f32)
    (A : S100000x64.Idx → Elt F .f32) (N : S100000x1.Idx → Elt F .f32) (B : S64.Idx → Elt F .f32)
    (y : S10000x64.Idx) (i : S100000x64.Idx)
    (ha : a y = A i)
    (hn : n (ix2 (⟨(y 0).val, (y 0).isLt⟩ : Fin 10000) (0 : Fin 1)) = N (ix2 (⟨(i 0).val, (i 0).isLt⟩ : Fin 100000) (0 : Fin 1)))
    (hb : b (ix1 (⟨(y 1).val, (y 1).isLt⟩ : Fin 64)) = B (ix1 (⟨(i 1).val, (i 1).isLt⟩ : Fin 64))) :
    k1_pay1 b a n y = scaleBias A N B i := by
  obtain ⟨p, q, rfl⟩ : ∃ (p : Fin 10000) (q : Fin 64), y = ix2 p q := ⟨y 0, y 1, eq_ix2 y⟩
  rw [pay_apply]
  exact congrArg₂ FloatOps.addf (congrArg₂ FloatOps.mulf ha hn) hb

/-- The printed index maps over the grid: every window that moves follows the grid point on the row axis. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 V c).flushed 3 t = ((cfg1.win 3).blk t).view.read (Elt F) (scaleBias (V c main_v27) (V c main_v28) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S10000x1) hz2, View.ld_unit_zero (S := S64) hz1]
  funext j
  obtain ⟨e00, e01, e10, e11, e20, e30, e31⟩ := idx_facts t
  have hj0 : (j 0).val < 10000 := (j 0).isLt
  have hj1 : (j 1).val < 64 := (j 1).isLt
  show k1_pay1 (iblk1 V c 2 t) (iblk1 V c 0 t) (iblk1 V c 1 t) j
      = scaleBias (V c main_v27) (V c main_v28) (V c main_arg4) (((cfg1.win 3).blk t).view.emb j)
  refine point (iblk1 V c 2 t) (iblk1 V c 0 t) (iblk1 V c 1 t) (V c main_v27) (V c main_v28) (V c main_arg4) j
    (((cfg1.win 3).blk t).view.emb j) ?_ ?_ ?_
  · show V c main_v27 (((cfg1.win 0).blk t).view.emb j) = V c main_v27 (((cfg1.win 3).blk t).view.emb j)
    refine congrArg (V c main_v27) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_v28 (((cfg1.win 1).blk t).view.emb (ix2 (⟨(j 0).val, (j 0).isLt⟩ : Fin 10000) (0 : Fin 1))) = V c main_v28 _
    refine congrArg (V c main_v28) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  · show V c main_arg4 (((cfg1.win 2).blk t).view.emb (ix1 (⟨(j 1).val, (j 1).isLt⟩ : Fin 64))) = V c main_arg4 _
    refine congrArg (V c main_arg4) (funext fun a => Fin.ext ?_)
    match a with
    | ⟨0, _⟩ => show win1_2.index t (0 : Fin 1) * 64 + 1 * (j 1).val = win1_3.index t (1 : Fin 2) * 64 + 1 * (j 1).val; omega

/-- An index of the result array lies in point `t`'s block iff each coordinate lies in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v29).slice (win1_3.rect t)).set ↔ _
  rw [View.set_slice_whole, Rect.mem_set_unit]
  exact Iff.rfl

/-- Row r lies in the block of point r / 10000: the ten blocks tile the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  rw [mem_blk]
  obtain ⟨-, -, -, -, -, e30, e31⟩ := idx_facts ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e30]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e31]; omega

/-- THE RESULT ARRAY after the region: `scaleBias` of the three arrays the region was entered with. -/
theorem final (c : Dev nD) :
    (dat1 V c).arrAt 3 cfg1.N = scaleBias (V c main_v27) (V c main_v28) (V c main_arg4) :=
  (dat1 V c).arrAt_eq_of_cover 3 _ (fun t _ => flushed_eq V c t) cover

end Cert.KernelIdeal.Finalize

end
-- ==== Proof.RefValue.lean ====
/- The reference read as the same two arithmetic steps around the same edge aggregation. Its dot_general of the
   row-scaled features with W is, entry by entry, the sum over k of (X[r, k] · N[r, 0]) · W[k, j]; its last three
   operations are agg[r, j] · norm[r] + bias[j]; and between them stand the gather over the edge sources and the
   scatter-add over the edge destinations, carried here as one function `aggOf` of the projected features and the two
   edge lists, never opened. -/
import proofs.«124485_j463856468203_1_alg».proof.Proof.Gen.ReferenceIdeal.Read
import proofs.«124485_j463856468203_1_alg».proof.Proof.Project
import proofs.«124485_j463856468203_1_alg».proof.Proof.Finalize
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable {F : FTy → Type} [FloatOps F]

/-- The edge aggregation both programs share: gather the rows of `h` at the edge sources (self-loops appended,
    negative indices wrapped), scatter-add them at the edge destinations into zeros. -/
def aggOf (h : (⟨S100000x64, .f32⟩ : BufTy).Contents (Elt F)) (x1 x2 : (⟨S3200000, .i32⟩ : BufTy).Contents (Elt F)) :
    (⟨S100000x64, .f32⟩ : BufTy).Contents (Elt F) :=
  Host.scatterAdd scatter_S100000x64_S3300000x1_S3300000x64_1_0_0_1 (val_main_v27 (F := F)) (val_main_v28 (F := F) x2)
    (Host.gather gather_S100000x64_S3300000x1_S3300000x64_1_0_n_n_0_1_164 h (val_main_v25 (F := F) x1))

/-- The reference's aggregate is `aggOf` of its projected features. -/
theorem val_main_v29_eq (x0 : (⟨S100000x256, .f32⟩ : BufTy).Contents (Elt F)) (x1 x2 : (⟨S3200000, .i32⟩ : BufTy).Contents (Elt F))
    (x3 : (⟨S256x64, .f32⟩ : BufTy).Contents (Elt F)) :
    val_main_v29 (F := F) x0 x1 x2 x3 = aggOf (val_main_v19 (F := F) x0 x1 x3) x1 x2 := rfl

/-- The reference's projected features, entry by entry: the row of X scaled by the row's norm, summed against W's column. -/
theorem proj_eq (x0 : (⟨S100000x256, .f32⟩ : BufTy).Contents (Elt Ideal)) (x1 : (⟨S3200000, .i32⟩ : BufTy).Contents (Elt Ideal))
    (x3 : (⟨S256x64, .f32⟩ : BufTy).Contents (Elt Ideal)) :
    val_main_v19 (F := Ideal) x0 x1 x3 = Cert.KernelIdeal.Project.projRows x0 (val_main_v16 (F := Ideal) x1) x3 := by
  funext i
  rw [val_main_v19_apply]
  refine Finset.sum_congr rfl fun k _ => ?_
  rw [val_main_v18_apply, val_main_v17_apply]
  have el : lidx_main_v19 i k = ix2 (⟨(i 0).val, (i 0).isLt⟩ : Fin 100000) k := funext fun a => Fin.ext (by
    match a with
    | ⟨0, _⟩ => rfl
    | ⟨1, _⟩ => rfl)
  have en : idx_main_v17 (lidx_main_v19 i k) = ix2 (⟨(i 0).val, (i 0).isLt⟩ : Fin 100000) (0 : Fin 1) := funext fun a => Fin.ext (by
    match a with
    | ⟨0, _⟩ => rfl
    | ⟨1, _⟩ => rfl)
  have er : ridx_main_v19 i k = ix2 k (⟨(i 1).val, (i 1).isLt⟩ : Fin 64) := funext fun a => Fin.ext (by
    match a with
    | ⟨0, _⟩ => rfl
    | ⟨1, _⟩ => rfl)
  rw [en, el, er]
  rfl

/-- THE REFERENCE'S RESULT: `scaleBias` of the aggregate of `projRows`, with the destination norms and the bias. -/
theorem result_eq (x0 : (⟨S100000x256, .f32⟩ : BufTy).Contents (Elt Ideal)) (x1 x2 : (⟨S3200000, .i32⟩ : BufTy).Contents (Elt Ideal))
    (x3 : (⟨S256x64, .f32⟩ : BufTy).Contents (Elt Ideal)) (x4 : (⟨S64, .f32⟩ : BufTy).Contents (Elt Ideal)) :
    val_main_v35 (F := Ideal) x0 x1 x2 x3 x4
      = Cert.KernelIdeal.Finalize.scaleBias
          (aggOf (Cert.KernelIdeal.Project.projRows x0 (val_main_v16 (F := Ideal) x1) x3) x1 x2)
          (val_main_v30 (F := Ideal) x2) x4 := by
  funext i
  rw [val_main_v35_apply, val_main_v32_apply, val_main_v34_apply, val_main_v33_apply, val_main_v31_apply,
    val_main_v29_eq, proj_eq]
  have en : idx_main_v31 i = ix2 (⟨(i 0).val, (i 0).isLt⟩ : Fin 100000) (0 : Fin 1) := funext fun a => Fin.ext (by
    match a with
    | ⟨0, _⟩ => rfl
    | ⟨1, _⟩ => rfl)
  have eb : idx_main_v33 (idx_main_v34 i) = ix1 (⟨(i 1).val, (i 1).isLt⟩ : Fin 64) := funext fun a => Fin.ext (by
    match a with
    | ⟨0, _⟩ => rfl)
  rw [en, eb]
  rfl

end Cert.ReferenceIdeal.RefValue

end
-- ==== Proof.Stretch.lean ====
/- The host operations around the two kernel regions, read as values. Before the first region the host computes the
   source norms from the first edge list; between the regions it gathers the projected rows along the edge sources and
   scatter-adds them along the edge destinations, and lays the destination norms out as a column. Each array a region is
   entered with is named here as a function of @main's arguments (and, for the aggregate, of the first region's output),
   in the very terms the reference's stages are written in; the two regions' value lemmas then give the result array. -/
import proofs.«124485_j463856468203_1_alg».proof.Proof.RunOut
import proofs.«124485_j463856468203_1_alg».proof.Proof.Project
import proofs.«124485_j463856468203_1_alg».proof.Proof.Finalize
import proofs.«124485_j463856468203_1_alg».proof.Proof.RefValue
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What the first region is entered with -/

theorem entry0_x (c : Dev nD) : V1 m ρ c main_arg0 = m ((c : Thread nD τ).loc main_arg0) := by
  show StableHlo.after hostOps0 (W0 m ρ c) (Proc.devRef .tc main_arg0) = _
  after_results

theorem entry0_w (c : Dev nD) : V1 m ρ c main_arg3 = m ((c : Thread nD τ).loc main_arg3) := by
  show StableHlo.after hostOps0 (W0 m ρ c) (Proc.devRef .tc main_arg3) = _
  after_results

/-- The source norms as a column: the reference's stage of the same name, of the first edge list. -/
theorem entry0_n (c : Dev nD) :
    V1 m ρ c main_v16 = Cert.ReferenceIdeal.Read.val_main_v16 (F := F) (m ((c : Thread nD τ).loc main_arg1)) := by
  show StableHlo.after hostOps0 (W0 m ρ c) (Proc.devRef .tc main_v16) = _
  after_results; rfl

/-! ## What the first region leaves of the buffers the second stretch reads -/

theorem mid_v1 (c : Dev nD) :
    W2 m ρ c (Proc.devRef .tc main_v1) = Cert.ReferenceIdeal.Read.val_main_v1 (F := F) (m ((c : Thread nD τ).loc main_arg1)) := by
  refine (W2_of_ne m ρ c main_v1 (by decide)).trans ?_
  show StableHlo.after hostOps0 (W0 m ρ c) (Proc.devRef .tc main_v1) = _
  after_results; rfl

theorem mid_v2 (c : Dev nD) :
    W2 m ρ c (Proc.devRef .tc main_v2) = Cert.ReferenceIdeal.Read.val_main_v2 (F := F) (m ((c : Thread nD τ).loc main_arg2)) := by
  refine (W2_of_ne m ρ c main_v2 (by decide)).trans ?_
  show StableHlo.after hostOps0 (W0 m ρ c) (Proc.devRef .tc main_v2) = _
  after_results; rfl

theorem mid_v15 (c : Dev nD) :
    W2 m ρ c (Proc.devRef .tc main_v15) = Cert.ReferenceIdeal.Read.val_main_v15 (F := F) (m ((c : Thread nD τ).loc main_arg2)) := by
  refine (W2_of_ne m ρ c main_v15 (by decide)).trans ?_
  show StableHlo.after hostOps0 (W0 m ρ c) (Proc.devRef .tc main_v15) = _
  after_results; rfl

theorem mid_b (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-! ## What the second region is entered with -/

/-- The aggregate: the shared edge aggregation of whatever the first region wrote. -/
theorem entry1_agg (c : Dev nD) :
    V3 m ρ c main_v27 = Cert.ReferenceIdeal.RefValue.aggOf (F := F) (W2 m ρ c (Proc.devRef .tc main_v17))
      (m ((c : Thread nD τ).loc main_arg1)) (m ((c : Thread nD τ).loc main_arg2)) := by
  show StableHlo.after hostOps1 (W2 m ρ c) (Proc.devRef .tc main_v27) = _
  after_results
  rw [mid_v1, mid_v2]
  rfl

/-- The destination norms as a column: the reference's stage, of the second edge list. -/
theorem entry1_n (c : Dev nD) :
    V3 m ρ c main_v28 = Cert.ReferenceIdeal.Read.val_main_v30 (F := F) (m ((c : Thread nD τ).loc main_arg2)) := by
  show StableHlo.after hostOps1 (W2 m ρ c) (Proc.devRef .tc main_v28) = _
  after_results
  rw [mid_v15]
  rfl

theorem entry1_b (c : Dev nD) : V3 m ρ c main_arg4 = m ((c : Thread nD τ).loc main_arg4) := by
  show StableHlo.after hostOps1 (W2 m ρ c) (Proc.devRef .tc main_arg4) = _
  after_results
  exact mid_b m ρ c

end Cert.KernelIdeal.Stretch

/-! ## The result array, over the extended reals -/

namespace Cert.KernelIdeal.Result

open Cert.KernelIdeal Cert.KernelIdeal.Gen Cert.KernelIdeal.Stretch
open Idealize.ShloMosaic Idealize.ShloMosaic.TcCoe Idealize.SL.Sem

variable (m : (ℓ : Loc nD τ sig) → Buf (Elt Ideal) ℓ) (ρ : Dev nD → PrngReg)

/-- What the first region writes: the projected, source-normalised features of @main's arguments. -/
theorem projected (c : Dev nD) :
    W2 m ρ c (Proc.devRef .tc main_v17)
      = Project.projRows (m ((c : Thread nD τ).loc main_arg0))
          (Cert.ReferenceIdeal.Read.val_main_v16 (F := Ideal) (m ((c : Thread nD τ).loc main_arg1)))
          (m ((c : Thread nD τ).loc main_arg3)) := by
  refine (W2_arr m ρ c 3).trans ?_
  rw [Project.final (V1 m ρ) c, entry0_x, entry0_n, entry0_w]

/-- THE RESULT ARRAY at the last boundary: the aggregate of the projected features, scaled by the destination norms,
    plus the bias — as a function of @main's arguments. -/
theorem result (c : Dev nD) :
    W4 m ρ c (Proc.devRef .tc main_v29)
      = Finalize.scaleBias
          (Cert.ReferenceIdeal.RefValue.aggOf (F := Ideal)
            (Project.projRows (m ((c : Thread nD τ).loc main_arg0))
              (Cert.ReferenceIdeal.Read.val_main_v16 (F := Ideal) (m ((c : Thread nD τ).loc main_arg1)))
              (m ((c : Thread nD τ).loc main_arg3)))
            (m ((c : Thread nD τ).loc main_arg1)) (m ((c : Thread nD τ).loc main_arg2)))
          (Cert.ReferenceIdeal.Read.val_main_v30 (F := Ideal) (m ((c : Thread nD τ).loc main_arg2)))
          (m ((c : Thread nD τ).loc main_arg4)) := by
  refine (W4_arr m ρ c 3).trans ?_
  rw [Finalize.final (V3 m ρ) c, entry1_agg, entry1_n, entry1_b, projected]

end Cert.KernelIdeal.Result

end
-- ==== Proof.lean ====
/- One graph-convolution layer with self-loops, the kernel against its jnp reference, over the extended reals.

   Both programs append a self-loop edge i → i to the edge lists (src, dst), count out- and in-degrees by a scatter-add of
   ones, clamp them below by 1 and take reciprocal square roots: norm_src and norm_dst. Both then compute
       h      = (X · norm_src[:, None]) @ W            (100000 × 64)
       agg    = segment_sum(h[src'], dst')             (gather the rows at the edge sources, add them at the destinations)
       out    = agg · norm_dst[:, None] + b .
   The host operations (degrees, norms, gather, scatter-add) are the same operations, literal for literal, in the two
   programs. The kernel differs in two places only: h is produced by a pipelined region of ten row blocks of 10000, each a
   matrix product of the block's scaled rows with W into a zero accumulator, the factors first narrowed to bf16; and the last
   line is a second region of ten row blocks computing agg · norm + b with vector broadcasts. Over the extended reals a
   change of float format is the identity, a block product into zero is the plain sum over the 256 contracted entries, and
   ten blocks of 10000 rows are the 100000 rows; so region one leaves exactly the reference's dot_general, entry by entry
   (Project.lean against RefValue.proj_eq), region two exactly its closing multiply-add (Finalize.lean against
   RefValue.result_eq), and the aggregation in between is ONE function of equal arguments on both sides (RefValue.aggOf),
   never opened. No law that needs finite inputs is used: sums are compared term by term in the same order.

   The frames of the two kernel programs are the generated ones; the reference's frame is its generated run with the result
   dropped; the idealization rewrote nothing, so preserves is trivial. -/
import proofs.«124485_j463856468203_1_alg».proof.Defs
import proofs.«124485_j463856468203_1_alg».proof.Proof.Gen.Kernel
import proofs.«124485_j463856468203_1_alg».proof.Proof.Gen.Kernel.Skeleton
import proofs.«124485_j463856468203_1_alg».proof.Proof.Gen.Kernel.Launch
import proofs.«124485_j463856468203_1_alg».proof.Proof.Gen.Kernel.Points
import proofs.«124485_j463856468203_1_alg».proof.Proof.Gen.Kernel.Frame
import proofs.«124485_j463856468203_1_alg».proof.Proof.Gen.KernelIdeal
import proofs.«124485_j463856468203_1_alg».proof.Proof.Gen.KernelIdeal.Skeleton
import proofs.«124485_j463856468203_1_alg».proof.Proof.Gen.KernelIdeal.Launch
import proofs.«124485_j463856468203_1_alg».proof.Proof.Gen.KernelIdeal.Points
import proofs.«124485_j463856468203_1_alg».proof.Proof.Gen.KernelIdeal.Frame
import proofs.«124485_j463856468203_1_alg».proof.Proof.Gen.ReferenceIdeal
import proofs.«124485_j463856468203_1_alg».proof.Proof.Gen.ReferenceIdeal.Run
import proofs.«124485_j463856468203_1_alg».proof.Proof.Gen.ReferenceIdeal.Read
import proofs.«124485_j463856468203_1_alg».proof.Proof.Gen.Pre_finite_inputs
import proofs.«124485_j463856468203_1_alg».proof.Proof.RunOut
import proofs.«124485_j463856468203_1_alg».proof.Proof.RefValue
import proofs.«124485_j463856468203_1_alg».proof.Proof.Stretch
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the same 100000 × 64 array: the kernel's result
    array is `scaleBias (aggOf (projRows X norm_src W) src dst) norm_dst b` of its arguments (Result.result), the
    reference's result the same term of its own (RefValue.result_eq). -/
theorem algebraic : Cert.algebraic_KernelIdeal_ReferenceIdeal := by
  intro m ρ m' ρ' _ hagree
  refine ⟨fun c => Cert.KernelIdeal.Gen.W4 m ρ c (Proc.devRef .tc Cert.KernelIdeal.main_v29),
    Cert.KernelIdeal.RunOut.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v35_eq, Cert.ReferenceIdeal.RefValue.result_eq, h0, h1, h2, h3, h4]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
